-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S16384x21 : Shape := ⟨2, ![16384, 21]⟩
abbrev S21x4096 : Shape := ⟨2, ![21, 4096]⟩
abbrev S21 : Shape := ⟨1, ![21]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384x21 : S_.BroadcastsInDim S16384x21 (![] : Fin 0 → Fin S16384x21.rank)
  reducesTo_S16384x21_S_d0_1 : S16384x21.ReducesTo [0, 1] S_
  bcast_S_S21x4096 : S_.BroadcastsInDim S21x4096 (![] : Fin 0 → Fin S21x4096.rank)
  reducesTo_S21x4096_S_d0_1 : S21x4096.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_v13 : IVec S_ 1) (main_v16 : IVec S21 1) : IVec S_ 1 :=
  let main_c_5 : IVec S_ 1 := constantI S_ 1 1#1
  let main_v17 : IVec S_ 1 := (fun x v => Host.reduce IntOp.andi x v reducesTo_S21_S_d0 h_S_) main_v16 main_c_5
  let main_v18 : IVec S_ 1 := andi main_v13 main_v17
  main_v18

def fn {F : FTy → Type} [FloatOps F] (main_arg0 : FVec F S16384x4096 .f32) (main_arg1 : FVec F S16384x21 .f32) (main_arg2 : FVec F S21x4096 .f32) (main_arg3 : FVec F S21 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S16384x21 .f32 := Host.absf main_arg1
  let main_cst_0 : FVec F S_ .f32 := constant S_ .f32 0x7F800000#32
  let main_v5 : FVec F S16384x21 .f32 := broadcastInDim S16384x21 ![] bcast_S_S16384x21 main_cst_0
  let main_v6 : IVec S16384x21 1 := cmpf .olt main_v4 main_v5
  let main_c_1 : IVec S_ 1 := constantI S_ 1 1#1
  let main_v7 : IVec S_ 1 := (fun x v => Host.reduce IntOp.andi x v reducesTo_S16384x21_S_d0_1 h_S_) main_v6 main_c_1
  let main_v8 : IVec S_ 1 := andi main_v3 main_v7
  let main_v9 : FVec F S21x4096 .f32 := Host.absf main_arg2
  let main_cst_2 : FVec F S_ .f32 := constant S_ .f32 0x7F800000#32
  let main_v10 : FVec F S21x4096 .f32 := broadcastInDim S21x4096 ![] bcast_S_S21x4096 main_cst_2
  let main_v11 : IVec S21x4096 1 := cmpf .olt main_v9 main_v10
  let main_c_3 : IVec S_ 1 := constantI S_ 1 1#1
  let main_v12 : IVec S_ 1 := (fun x v => Host.reduce IntOp.andi x v reducesTo_S21x4096_S_d0_1 h_S_) main_v11 main_c_3
  let main_v13 : IVec S_ 1 := andi main_v8 main_v12
  let main_v14 : FVec F S21 .f32 := Host.absf main_arg3
  let main_cst_4 : FVec F S_ .f32 := constant S_ .f32 0x7F800000#32
  let main_v15 : FVec F S21 .f32 := broadcastInDim S21 ![] bcast_S_S21 main_cst_4
  let main_v16 : IVec S21 1 := cmpf .olt main_v14 main_v15
  fn_part1 (F := F) main_v13 main_v16
-- ==== Kernel.lean ====
abbrev S16384x4096 : Shape := ⟨2, ![16384, 4096]⟩
abbrev S16384x21 : Shape := ⟨2, ![16384, 21]⟩
abbrev S21x4096 : Shape := ⟨2, ![21, 4096]⟩
abbrev S21 : Shape := ⟨1, ![21]⟩
abbrev S_ : Shape := ⟨0, ![]⟩
abbrev S128x4096 : Shape := ⟨2, ![128, 4096]⟩
abbrev S128 : Shape := ⟨1, ![128]⟩
abbrev S1x128 : Shape := ⟨2, ![1, 128]⟩
abbrev S16384x128 : Shape := ⟨2, ![16384, 128]⟩
abbrev S4096x128 : Shape := ⟨2, ![4096, 128]⟩
abbrev S16384x1 : Shape := ⟨2, ![16384, 1]⟩
abbrev S512x4096 : Shape := ⟨2, ![512, 4096]⟩
abbrev S512x128 : Shape := ⟨2, ![512, 128]⟩
abbrev S512x1 : Shape := ⟨2, ![512, 1]⟩
abbrev S512 : Shape := ⟨1, ![512]⟩
abbrev S16384 : Shape := ⟨1, ![16384]⟩

abbrev nBuf : Space → Nat
  | .hbm => 19
  | .vmem => 10
  | .smem => 0
  | _ => 0

abbrev bufTy : (tb : Table) → Fin (tcTables nBuf tb) → BufTy
  | .hbm, ⟨0, _⟩ => ⟨S16384x4096, .f32⟩
  | .hbm, ⟨1, _⟩ => ⟨S16384x21, .f32⟩
  | .hbm, ⟨2, _⟩ => ⟨S21x4096, .f32⟩
  | .hbm, ⟨3, _⟩ => ⟨S21, .f32⟩
  | .hbm, ⟨4, _⟩ => ⟨S_, .i32⟩
  | .hbm, ⟨5, _⟩ => ⟨S_, .f32⟩
  | .hbm, ⟨6, _⟩ => ⟨S128x4096, .f32⟩
  | .hbm, ⟨7, _⟩ => ⟨S_, .i32⟩
  | .hbm, ⟨8, _⟩ => ⟨S_, .f32⟩
  | .hbm, ⟨9, _⟩ => ⟨S128, .f32⟩
  | .hbm, ⟨10, _⟩ => ⟨S1x128, .f32⟩
  | .hbm, ⟨11, _⟩ => ⟨S_, .i32⟩
  | .hbm, ⟨12, _⟩ => ⟨S_, .f32⟩
  | .hbm, ⟨13, _⟩ => ⟨S16384x128, .f32⟩
  | .hbm, ⟨14, _⟩ => ⟨S4096x128, .f32⟩
  | .hbm, ⟨15, _⟩ => ⟨S16384x128, .f32⟩
  | .hbm, ⟨16, _⟩ => ⟨S16384x1, .f32⟩
  | .hbm, ⟨17, _⟩ => ⟨S16384x21, .f32⟩
  | .hbm, ⟨18, _⟩ => ⟨S16384, .f32⟩
  | .local _ .vmem, ⟨0, _⟩ => ⟨S512x4096, .f32⟩
  | .local _ .vmem, ⟨1, _⟩ => ⟨S512x4096, .f32⟩
  | .local _ .vmem, ⟨2, _⟩ => ⟨S512x128, .f32⟩
  | .local _ .vmem, ⟨3, _⟩ => ⟨S512x128, .f32⟩
  | .local _ .vmem, ⟨4, _⟩ => ⟨S4096x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x1, .f32⟩
  | .local _ .vmem, ⟨9, _⟩ => ⟨S512x1, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_c_0 : Ref sig .tc := ⟨.hbm, 7, rfl⟩
abbrev main_call1_v0 : Ref sig .tc := ⟨.hbm, 8, rfl⟩
abbrev main_v1 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  pads_S21x4096_S128x4096_01070_000 : S21x4096.Pads (![0, 0] : Fin 2 → Nat) ![107, 0] ![0, 0] S128x4096
  h_S_ : 0 < S_.numel
  pads_S21_S128_01070 : S21.Pads (![0] : Fin 1 → Nat) ![107] ![0] S128
  shapeCasts_S128_S1x128 : S128.ShapeCasts S1x128
  pads_S16384x21_S16384x128_000_01070 : S16384x21.Pads (![0, 0] : Fin 2 → Nat) ![0, 107] ![0, 0] S16384x128
  transposes_S128x4096_S4096x128_1_0 : S128x4096.Transposes [1, 0] S4096x128
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S512x128 : S1x128.Broadcasts S512x128
  inb_S512x128_S512x128_0_0 : ∀ a, (![0, 0] : Fin 2 → Nat) a + S512x128.size a ≤ S512x128.size a
  h_S512x128 : 0 < S512x128.numel
  shapeCasts_S512x128_S512x128 : S512x128.ShapeCasts S512x128
  reduces_S512x128_S512 : S512x128.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  slices_S16384x128_S16384x21_0_0 : S16384x128.Slices ![0, 0] S16384x21
  shapeCasts_S16384x1_S16384 : S16384x1.ShapeCasts S16384
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S16384x128.size a
  hwx0_1 : ∀ i : grid0.Coords, EltTy.bits .f32 = 32 ∨ (Rect.block (s := S16384x128) S512x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S4096x128.size a
  hwx0_2 : ∀ i : grid0.Coords, EltTy.bits .f32 = 32 ∨ (Rect.block (s := S4096x128) S4096x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S16384x128.size a
  hwx0_4 : ∀ i : grid0.Coords, EltTy.bits .f32 = 32 ∨ (Rect.block (s := S16384x128) S512x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4096x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5_0) S512x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5_1) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S16384x21 : Shape := ⟨2, ![16384, 21]⟩
abbrev S21x4096 : Shape := ⟨2, ![21, 4096]⟩
abbrev S21 : Shape := ⟨1, ![21]⟩
abbrev S1x21 : Shape := ⟨2, ![1, 21]⟩
abbrev S_ : Shape := ⟨0, ![]⟩
abbrev S16384 : Shape := ⟨1, ![16384]⟩

abbrev nBuf : Space → Nat
  | .hbm => 11
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x21, .f32⟩
  | .hbm, ⟨2, _⟩ => ⟨S21x4096, .f32⟩
  | .hbm, ⟨3, _⟩ => ⟨S21, .f32⟩
  | .hbm, ⟨4, _⟩ => ⟨S16384x21, .f32⟩
  | .hbm, ⟨5, _⟩ => ⟨S1x21, .f32⟩
  | .hbm, ⟨6, _⟩ => ⟨S16384x21, .f32⟩
  | .hbm, ⟨7, _⟩ => ⟨S16384x21, .f32⟩
  | .hbm, ⟨8, _⟩ => ⟨S16384x21, .f32⟩
  | .hbm, ⟨9, _⟩ => ⟨S_, .f32⟩
  | .hbm, ⟨10, _⟩ => ⟨S16384, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩

abbrev nD : Nat := 1
abbrev τ : Topo := Topo.v7x

variable {F : FTy → Type} [FloatOps F]

class Facts₀ : Prop where
  bcast_S21_S1x21_1 : S21.BroadcastsInDim S1x21 (![1] : Fin 1 → Fin S1x21.rank)
  bcast_S1x21_S16384x21_0_1 : S1x21.BroadcastsInDim S16384x21 (![0, 1] : Fin 2 → Fin S16384x21.rank)
  reducesTo_S16384x21_S16384_d1 : S16384x21.ReducesTo [1] S16384
  h_S_ : 0 < S_.numel
  dot_S16384x4096_S21x4096_S16384x21_1_1_0_0_n_n_wf : DotDims.WF S16384x4096 S21x4096 S16384x21 [1] [1] [0] [0] [] []

variable [Facts₀]

def dot_S16384x4096_S21x4096_S16384x21_1_1_0_0_n_n : DotDims S16384x4096 S21x4096 S16384x21 where
  lhsContracting := [1]
  rhsContracting := [1]
  lhsNonContracting := [0]
  rhsNonContracting := [0]
  lhsBatch := []
  rhsBatch := []
  wf := dot_S16384x4096_S21x4096_S16384x21_1_1_0_0_n_n_wf

class Facts : Prop extends Facts₀ where

variable [Facts]
-- ==== Proof.LibPlainDot.lean ====
/-
  General facts about the shapes a row-wise dense layer meets, on the extended reals: a rows-by-columns matrix product
  read at one entry as a sum over the shared axis; a column broadcast across the columns; a bias vector laid along the
  rows.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.LibPlainDot

open Idealize.ShloMosaic Idealize.ShloMosaic.ValueIdx

/-- The contraction sum of an `M×K` by `K×N` product at entry `(p, j)` is `∑ₖ l(p,k)·r(k,j)`: the one contracted axis
    is re-indexed by its coordinate; the left operand is read at the entry's row and the right at its column (the four
    hypotheses say so of the dimension numbers, coordinate by coordinate). -/
theorem sum_plain {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (l : (⟨2, ![M, K]⟩ : Shape).Idx → EReal) (r : (⟨2, ![K, N]⟩ : Shape).Idx → EReal) (p : Fin M) (j : Fin N) :
    ∑ q : D.contr.Idx, l (D.lhsIdx (ix2 p j) q) * r (D.rhsIdx (ix2 p j) q) = ∑ k : Fin K, l (ix2 p k) * r (ix2 k j) := by
  rw [← Equiv.sum_comp (contrEquiv1 D K hr hs).symm]
  refine Finset.sum_congr rfl fun k _ => ?_
  have hk := contrEquiv1_symm_val D K hr hs k
  have el : D.lhsIdx (ix2 p j) ((contrEquiv1 D K hr hs).symm k) = ix2 p k := funext fun a => Fin.ext (by
    match a with
    | ⟨0, _⟩ => exact hl0 _ _
    | ⟨1, _⟩ => exact (hl1 _ _).trans hk)
  have er : D.rhsIdx (ix2 p j) ((contrEquiv1 D K hr hs).symm k) = ix2 k j := funext fun a => Fin.ext (by
    match a with
    | ⟨0, _⟩ => exact (hr0 _ _).trans hk
    | ⟨1, _⟩ => exact hr1 _ _)
  rw [el, er]

/-- A matrix product accumulated into zeros, read at entry `(p, j)`. -/
theorem matmul_plain_apply {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (prec : Option ContractPrecision)
    (l : FVec Ideal ⟨2, ![M, K]⟩ .f32) (r : FVec Ideal ⟨2, ![K, N]⟩ .f32) (p : Fin M) (j : Fin N) :
    FloatOps.matmul D prec l r (constant (F := Ideal) ⟨2, ![M, N]⟩ .f32 0x00000000#32) (ix2 p j)
      = ∑ k : Fin K, l (ix2 p k) * r (ix2 k j) := by
  rw [Ideal.matmul_constant_zero_apply]
  exact sum_plain D hr hs hl0 hl1 hr0 hr1 l r p j

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector `[b]` viewed as one row `[1, b]` and laid along `a` rows reads, at `(p, c)`, its entry `c`. -/
theorem bias_row_apply {a b : ℕ} (x : (⟨1, ![b]⟩ : Shape).Idx → α)
    (h : (⟨1, ![b]⟩ : Shape).ShapeCasts ⟨2, ![1, b]⟩) (h' : (⟨2, ![1, b]⟩ : Shape).Broadcasts ⟨2, ![a, b]⟩)
    (p : Fin a) (c : Fin b) :
    broadcastTo ⟨2, ![a, b]⟩ (shapeCast ⟨2, ![1, b]⟩ x h) h' (ix2 p c) = x (ix1 c) := by
  rw [broadcastTo_1b_ab_apply, shapeCast_a_1a_apply]

/-- The word of all zero bits is the real number zero. -/
theorem scalar_zero : (Scalar.ofBits (F := Ideal) .f32 0x00000000#32 : Ideal .f32) = (0 : EReal) :=
  Ideal.ofBits_zero_f32

end Cert.LibPlainDot

end
-- ==== Proof.Body.lean ====
/-
  What the kernel body stores, read at an index of the block, on the extended reals.

  The first store's value at (p, q) is the row p of the x block against column q of the transposed weights, the
  4096-term sum (the matrix product accumulates into zeros, and a change of float format is the identity on the
  extended reals), plus the bias row's entry q. The second store's value at (p, 0) is the sum over the 128 lanes a of the
  first store's value at (p, a) times the v block's entry (p, a): the lane sum of the product, kept as a column.
-/
import proofs.«155062_j6373731467819_1_alg».proof.Proof.Gen.KernelIdeal.Skeleton
import proofs.«155062_j6373731467819_1_alg».proof.Proof.LibPlainDot
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Body

open Cert.KernelIdeal Cert.KernelIdeal.Gen Idealize.ShloMosaic Idealize.ShloMosaic.ValueIdx

/-! ## The product's index maps, coordinate by coordinate: rows of the left operand, columns of the right, the one
    contracted axis second on the left and first on the right -/

theorem lhs_axis0 (i : S512x128.Idx) (q : dot_S512x4096_S4096x128_S512x128_1_0_0_1_n_n.contr.Idx) :
    (dot_S512x4096_S4096x128_S512x128_1_0_0_1_n_n.lhsIdx i q 0).val = (i 0).val := by
  unfold DotDims.lhsIdx
  rw [dif_neg (show ¬(0 : Fin S512x4096.rank) ∈ dot_S512x4096_S4096x128_S512x128_1_0_0_1_n_n.lhsBatch by decide), dif_pos (show (0 : Fin S512x4096.rank) ∈ dot_S512x4096_S4096x128_S512x128_1_0_0_1_n_n.lhsNonContracting by decide)]
  rfl
theorem lhs_axis1 (i : S512x128.Idx) (q : dot_S512x4096_S4096x128_S512x128_1_0_0_1_n_n.contr.Idx) :
    (dot_S512x4096_S4096x128_S512x128_1_0_0_1_n_n.lhsIdx i q 1).val = (q ⟨0, by decide⟩).val :=
  dot_S512x4096_S4096x128_S512x128_1_0_0_1_n_n.lhsIdx_val_of_single rfl i q
theorem rhs_axis0 (i : S512x128.Idx) (q : dot_S512x4096_S4096x128_S512x128_1_0_0_1_n_n.contr.Idx) :
    (dot_S512x4096_S4096x128_S512x128_1_0_0_1_n_n.rhsIdx i q 0).val = (q ⟨0, by decide⟩).val :=
  dot_S512x4096_S4096x128_S512x128_1_0_0_1_n_n.rhsIdx_val_of_single rfl i q
theorem rhs_axis1 (i : S512x128.Idx) (q : dot_S512x4096_S4096x128_S512x128_1_0_0_1_n_n.contr.Idx) :
    (dot_S512x4096_S4096x128_S512x128_1_0_0_1_n_n.rhsIdx i q 1).val = (i 1).val := by
  unfold DotDims.rhsIdx
  rw [dif_neg (show ¬(1 : Fin S4096x128.rank) ∈ dot_S512x4096_S4096x128_S512x128_1_0_0_1_n_n.rhsBatch by decide), dif_pos (show (1 : Fin S4096x128.rank) ∈ dot_S512x4096_S4096x128_S512x128_1_0_0_1_n_n.rhsNonContracting by decide)]
  rfl

/-- The first store's value at (p, q): Σ_k x0(p, k) · x2(k, q) + x3(0, q). -/
theorem pay1_apply (x0 : Vec Ideal S512x4096 .f32) (x2 : Vec Ideal S4096x128 .f32) (x3 : Vec Ideal S1x128 .f32)
    (p : Fin 512) (q : Fin 128) :
    k0_pay1 (F := Ideal) x0 x2 x3 (ix2 p q) = (∑ k : Fin 4096, x0 (ix2 p k) * x2 (ix2 k q)) + x3 (ix2 (0 : Fin 1) q) := by
  unfold k0_pay1
  show FloatOps.matmul dot_S512x4096_S4096x128_S512x128_1_0_0_1_n_n none (truncf .bf16 x0 _) (truncf .bf16 (shapeCast S4096x128 x2 _) _)
        (constant (F := Ideal) S512x128 .f32 0x00000000#32) (ix2 p q)
      + broadcastTo S512x128 (shapeCast S1x128 x3 _) _ (ix2 p q) = _
  rw [Ideal.matmul_constant_zero_apply, shapeCast_self, shapeCast_self, broadcastTo_1b_ab_apply]
  refine congrArg (· + x3 (ix2 (0 : Fin 1) q)) ?_
  exact Cert.LibPlainDot.sum_plain dot_S512x4096_S4096x128_S512x128_1_0_0_1_n_n rfl rfl lhs_axis0 lhs_axis1 rhs_axis0 rhs_axis1 x0 x2 p q

/-- The second store's value at (p, 0): the lane sum of the first store's row p times the v block's row p. -/
theorem pay2_apply (x0 : Vec Ideal S512x4096 .f32) (x2 : Vec Ideal S4096x128 .f32) (x3 : Vec Ideal S1x128 .f32)
    (x1 : Vec Ideal S512x128 .f32) (p : Fin 512) :
    k0_pay2 (F := Ideal) x0 x2 x3 x1 (ix2 p (0 : Fin 1))
      = ∑ a : Fin 128, k0_pay1 (F := Ideal) x0 x2 x3 (ix2 p a) * x1 (ix2 p a) := by
  unfold k0_pay2
  refine (shapeCast_apply _ _ (ix2 p (0 : Fin 1)) (ix1 p) (by
    rw [Shape.rowMajor_val_two, Shape.rowMajor_val_one]; show p.val = p.val * 1 + 0; omega)).trans ?_
  refine (Ideal.multiReduction_add_single _ 0x00000000#32 _ _ _ (ix1 p)).trans ?_
  refine Finset.sum_congr rfl fun a _ => ?_
  rw [shapeCast_self]
  have e : ∀ h : S512x128.Reduces [1] S512, h.lift (ix1 p) a = ix2 p a := fun h =>
    funext fun d => by match d with | ⟨0, _⟩ => rfl | ⟨1, _⟩ => rfl
  rw [e]
  rfl

end Cert.KernelIdeal.Body

end
-- ==== Proof.Spec.lean ====
/-
  Twenty-one linear heads over the rows of `x`, and the heads of a row weighted by that row of `v` and summed:
  the two results as functions of the argument arrays on the extended reals, index by index.

    heads x W b (r, a) = Σ_d x(r, d) · W(a, d) + b(a)              a < 21
    mix x v W b r      = Σ_{a < 21} heads x W b (r, a) · v(r, a)

  A program may compute the same two arrays over 128 lanes, with the weights transposed to [4096, 128], the bias as one
  row [1, 128] and `v` widened to [16384, 128], every lane from 21 on holding zero: `headsWide`, `mixWide`. On the
  extended reals a product with zero is zero whatever the other factor, so a lane from 21 on holds
  Σ_d x(r, d) · 0 + 0 = 0 in `headsWide` and adds 0 · 0 = 0 to `mixWide`: the first 21 lanes of `headsWide` are
  `heads`, and `mixWide` is `mix` (no finiteness of `x` is used).
-/
import Idealize.ShloMosaic.PureOps.Ideal
import Idealize.ShloMosaic.PureOps.Ideal.Laws
import Idealize.ShloMosaic.Lib.ValueIdx

noncomputable section

open scoped BigOperators

namespace Cert.Heads

open Idealize.ShloMosaic Idealize.ShloMosaic.ValueIdx

/-- Head `a` of row `r`: the row of `x` against row `a` of `W`, plus the head's bias. -/
def heads (x : (⟨2, ![16384, 4096]⟩ : Shape).Idx → EReal) (W : (⟨2, ![21, 4096]⟩ : Shape).Idx → EReal)
    (b : (⟨1, ![21]⟩ : Shape).Idx → EReal) : (⟨2, ![16384, 21]⟩ : Shape).Idx → EReal :=
  fun i => (∑ k : Fin 4096, x (ix2 (i 0) k) * W (ix2 (i 1) k)) + b (ix1 (i 1))

/-- The heads of row `r`, each times the row's entry of `v`, summed over the heads. -/
def mix (x : (⟨2, ![16384, 4096]⟩ : Shape).Idx → EReal) (v : (⟨2, ![16384, 21]⟩ : Shape).Idx → EReal)
    (W : (⟨2, ![21, 4096]⟩ : Shape).Idx → EReal) (b : (⟨1, ![21]⟩ : Shape).Idx → EReal) :
    (⟨1, ![16384]⟩ : Shape).Idx → EReal :=
  fun i => ∑ a : Fin 21, heads x W b (ix2 (i 0) a) * v (ix2 (i 0) a)

/-- The heads over 128 lanes: weights transposed, the bias one row. -/
def headsWide (x : (⟨2, ![16384, 4096]⟩ : Shape).Idx → EReal) (wT : (⟨2, ![4096, 128]⟩ : Shape).Idx → EReal)
    (bw : (⟨2, ![1, 128]⟩ : Shape).Idx → EReal) : (⟨2, ![16384, 128]⟩ : Shape).Idx → EReal :=
  fun i => (∑ k : Fin 4096, x (ix2 (i 0) k) * wT (ix2 k (i 1))) + bw (ix2 (0 : Fin 1) (i 1))

/-- The weighted sum over 128 lanes, kept as a column. -/
def mixWide (x : (⟨2, ![16384, 4096]⟩ : Shape).Idx → EReal) (vw : (⟨2, ![16384, 128]⟩ : Shape).Idx → EReal)
    (wT : (⟨2, ![4096, 128]⟩ : Shape).Idx → EReal) (bw : (⟨2, ![1, 128]⟩ : Shape).Idx → EReal) :
    (⟨2, ![16384, 1]⟩ : Shape).Idx → EReal :=
  fun i => ∑ a : Fin 128, headsWide x wT bw (ix2 (i 0) a) * vw (ix2 (i 0) a)

/-- A sum over 128 lanes whose lanes from 21 on are zero is the sum over the first 21. -/
theorem sum_lanes (f : Fin 21 → EReal) :
    (∑ a : Fin 128, if h : a.val < 21 then f ⟨a.val, h⟩ else 0) = ∑ a : Fin 21, f a := by
  have e := Fin.sum_univ_add (M := EReal) (a := 21) (b := 107)
    (fun a : Fin (21 + 107) => if h : a.val < 21 then f ⟨a.val, h⟩ else 0)
  refine e.trans ?_
  have h1 : ∀ i : Fin 21, (if h : (Fin.castAdd 107 i).val < 21 then f ⟨(Fin.castAdd 107 i).val, h⟩ else 0) = f i :=
    fun i => by rw [dif_pos (show (Fin.castAdd 107 i).val < 21 from i.isLt)]; rfl
  have h2 : ∀ i : Fin 107, (if h : (Fin.natAdd 21 i).val < 21 then f ⟨(Fin.natAdd 21 i).val, h⟩ else 0) = 0 :=
    fun i => by rw [dif_neg (show ¬ (Fin.natAdd 21 i).val < 21 from by show ¬ 21 + i.val < 21; omega)]
  rw [Finset.sum_congr rfl (fun i _ => h1 i), Finset.sum_congr rfl (fun i _ => h2 i), Finset.sum_const_zero, add_zero]

section Widened

variable (x : (⟨2, ![16384, 4096]⟩ : Shape).Idx → EReal) (v : (⟨2, ![16384, 21]⟩ : Shape).Idx → EReal)
  (W : (⟨2, ![21, 4096]⟩ : Shape).Idx → EReal) (b : (⟨1, ![21]⟩ : Shape).Idx → EReal)
  (vw : (⟨2, ![16384, 128]⟩ : Shape).Idx → EReal) (wT : (⟨2, ![4096, 128]⟩ : Shape).Idx → EReal)
  (bw : (⟨2, ![1, 128]⟩ : Shape).Idx → EReal)

/-- A lane of the wide heads: the head below 21, zero from 21 on (there every product is with a zero weight and the
    bias is zero). -/
theorem headsWide_lane
    (hW : ∀ (k : Fin 4096) (a : Fin 128), wT (ix2 k a) = if h : a.val < 21 then W (ix2 ⟨a.val, h⟩ k) else 0)
    (hb : ∀ a : Fin 128, bw (ix2 (0 : Fin 1) a) = if h : a.val < 21 then b (ix1 ⟨a.val, h⟩) else 0)
    (r : Fin 16384) (a : Fin 128) :
    headsWide x wT bw (ix2 r a) = if h : a.val < 21 then heads x W b (ix2 r ⟨a.val, h⟩) else 0 := by
  show (∑ k : Fin 4096, x (ix2 r k) * wT (ix2 k a)) + bw (ix2 (0 : Fin 1) a) = _
  by_cases h : a.val < 21
  · rw [dif_pos h, hb a, dif_pos h]
    show _ = (∑ k : Fin 4096, x (ix2 r k) * W (ix2 ⟨a.val, h⟩ k)) + b (ix1 ⟨a.val, h⟩)
    refine congrArg (· + b (ix1 ⟨a.val, h⟩)) (Finset.sum_congr rfl fun k _ => ?_)
    rw [hW k a, dif_pos h]
  · rw [dif_neg h, hb a, dif_neg h, add_zero]
    refine Finset.sum_eq_zero fun k _ => ?_
    rw [hW k a, dif_neg h, mul_zero]

/-- The wide weighted sum of a row is the weighted sum of its 21 heads. -/
theorem mixWide_row
    (hW : ∀ (k : Fin 4096) (a : Fin 128), wT (ix2 k a) = if h : a.val < 21 then W (ix2 ⟨a.val, h⟩ k) else 0)
    (hb : ∀ a : Fin 128, bw (ix2 (0 : Fin 1) a) = if h : a.val < 21 then b (ix1 ⟨a.val, h⟩) else 0)
    (hv : ∀ (r : Fin 16384) (a : Fin 128), vw (ix2 r a) = if h : a.val < 21 then v (ix2 r ⟨a.val, h⟩) else 0)
    (r : Fin 16384) :
    mixWide x vw wT bw (ix2 r (0 : Fin 1)) = mix x v W b (ix1 r) := by
  show (∑ a : Fin 128, headsWide x wT bw (ix2 r a) * vw (ix2 r a)) = ∑ a : Fin 21, heads x W b (ix2 r a) * v (ix2 r a)
  rw [← sum_lanes fun a : Fin 21 => heads x W b (ix2 r a) * v (ix2 r a)]
  refine Finset.sum_congr rfl fun a _ => ?_
  rw [headsWide_lane x W b wT bw hW hb r a, hv r a]
  by_cases h : a.val < 21
  · rw [dif_pos h, dif_pos h, dif_pos h]
  · rw [dif_neg h, dif_neg h, dif_neg h, mul_zero]

end Widened

end Cert.Heads

end
-- ==== Proof.Blocks.lean ====
/-
  The two output arrays after the region, as whole-array functions of the arrays the region finds.

  The grid has 32 points; point t takes rows 512 t … 512 t + 511 of `x` and of the widened `v`, the whole transposed
  weights and the whole bias row, and writes back rows 512 t … 512 t + 511 of both outputs. A block's coordinate is
  block index × block size + the coordinate inside the block, so the block of point t read at (p, ·) is the array at
  (512 t + p, ·). What point t writes back is therefore block t of `headsWide` (first output) and of `mixWide` (second
  output) of those arrays; the 32 row blocks cover each output, row r in the block of point r / 512; so after the region
  the outputs ARE those two functions.
-/
import proofs.«155062_j6373731467819_1_alg».proof.Proof.Gen.KernelIdeal.Frame
import proofs.«155062_j6373731467819_1_alg».proof.Proof.Body
import proofs.«155062_j6373731467819_1_alg».proof.Proof.Spec
import Idealize.ShloMosaic.Lib.Pipeline.Value

set_option maxRecDepth 16384

noncomputable section

open scoped BigOperators

namespace Cert.KernelIdeal.Blocks

open Cert.KernelIdeal Cert.KernelIdeal.Gen Cert.KernelIdeal.Body Cert.Heads
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The printed index maps, decided over the 32 points: the row windows sit at block (t, 0), the two resident
    windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ t.val < 32 :=
  (by decide +kernel : ∀ t : Fin grid0.N, _)

/-- Every row block of the outputs is some point's. -/
theorem idx_onto4 : ∀ q0 : Fin 32, ∃ t : Fin cfg0.N, win0_4.index t = ![q0.val, 0] :=
  (by decide +kernel : ∀ q0 : Fin 32, ∃ t : Fin grid0.N, win0_4.index t = ![q0.val, 0])
theorem idx_onto5 : ∀ q0 : Fin 32, ∃ t : Fin cfg0.N, win0_5.index t = ![q0.val, 0] :=
  (by decide +kernel : ∀ q0 : Fin 32, ∃ t : Fin grid0.N, win0_5.index t = ![q0.val, 0])

/-! ## The input blocks, read where the arrays are -/

/-- The x block of point t at (p, k) is `x` at row 512 t + p. -/
theorem read_x (c : Dev nD) (t : Fin cfg0.N) (p : Fin 512) (k : Fin 4096) (r : Fin 16384) (hr : r.val = t.val * 512 + p.val) :
    iblk m c 0 t (ix2 p k) = V m c main_arg0 (ix2 r k) := by
  obtain ⟨e0, e1, -⟩ := idx_facts t
  show V m c main_arg0 (((cfg0.win 0).blk t).view.emb (ix2 p k)) = V m c main_arg0 (ix2 r k)
  have h : ((cfg0.win 0).blk t).view.emb (ix2 p k) = ix2 r k := by
    funext a; apply Fin.ext
    match a with
    | ⟨0, _⟩ => show win0_0.index t (0 : Fin 2) * 512 + 1 * p.val = r.val; omega
    | ⟨1, _⟩ => show win0_0.index t (1 : Fin 2) * 4096 + 1 * k.val = k.val; omega
  rw [h]

/-- The widened-v block of point t at (p, a) is that array at row 512 t + p. -/
theorem read_v (c : Dev nD) (t : Fin cfg0.N) (p : Fin 512) (a : Fin 128) (r : Fin 16384) (hr : r.val = t.val * 512 + p.val) :
    iblk m c 1 t (ix2 p a) = V m c main_v3 (ix2 r a) := by
  obtain ⟨-, -, e0, e1, -⟩ := idx_facts t
  show V m c main_v3 (((cfg0.win 1).blk t).view.emb (ix2 p a)) = V m c main_v3 (ix2 r a)
  have h : ((cfg0.win 1).blk t).view.emb (ix2 p a) = ix2 r a := by
    funext d; apply Fin.ext
    match d with
    | ⟨0, _⟩ => show win0_1.index t (0 : Fin 2) * 512 + 1 * p.val = r.val; omega
    | ⟨1, _⟩ => show win0_1.index t (1 : Fin 2) * 128 + 1 * a.val = a.val; omega
  rw [h]

/-- The transposed weights are one block: every point reads the whole array. -/
theorem read_w (c : Dev nD) (t : Fin cfg0.N) (k : Fin 4096) (a : Fin 128) :
    iblk m c 2 t (ix2 k a) = V m c main_v4 (ix2 k a) := by
  obtain ⟨-, -, -, -, e0, e1, -⟩ := idx_facts t
  show V m c main_v4 (((cfg0.win 2).blk t).view.emb (ix2 k a)) = V m c main_v4 (ix2 k a)
  have h : ((cfg0.win 2).blk t).view.emb (ix2 k a) = ix2 k a := by
    funext d; apply Fin.ext
    match d with
    | ⟨0, _⟩ => show win0_2.index t (0 : Fin 2) * 4096 + 1 * k.val = k.val; omega
    | ⟨1, _⟩ => show win0_2.index t (1 : Fin 2) * 128 + 1 * a.val = a.val; omega
  rw [h]

/-- So is the bias row. -/
theorem read_b (c : Dev nD) (t : Fin cfg0.N) (a : Fin 128) :
    iblk m c 3 t (ix2 (0 : Fin 1) a) = V m c main_v2 (ix2 (0 : Fin 1) a) := by
  obtain ⟨-, -, -, -, -, -, e0, e1, -⟩ := idx_facts t
  show V m c main_v2 (((cfg0.win 3).blk t).view.emb (ix2 (0 : Fin 1) a)) = V m c main_v2 (ix2 (0 : Fin 1) a)
  have h : ((cfg0.win 3).blk t).view.emb (ix2 (0 : Fin 1) a) = ix2 (0 : Fin 1) a := by
    funext d; apply Fin.ext
    match d with
    | ⟨0, _⟩ => show win0_3.index t (0 : Fin 2) * 1 + 1 * 0 = 0; omega
    | ⟨1, _⟩ => show win0_3.index t (1 : Fin 2) * 128 + 1 * a.val = a.val; omega
  rw [h]

/-- The first store's value at point t, entry (p, q), is `headsWide` of the arrays at (512 t + p, q). -/
theorem pay1_block (c : Dev nD) (t : Fin cfg0.N) (p : Fin 512) (q : Fin 128) (r : Fin 16384) (hr : r.val = t.val * 512 + p.val) :
    k0_pay1 (F := Ideal) (iblk m c 0 t) (iblk m c 2 t) (iblk m c 3 t) (ix2 p q)
      = headsWide (V m c main_arg0) (V m c main_v4) (V m c main_v2) (ix2 r q) := by
  refine (pay1_apply (iblk m c 0 t) (iblk m c 2 t) (iblk m c 3 t) p q).trans ?_
  rw [read_b m c t q]
  simp only [read_x m c t p _ r hr, read_w m c t]
  rfl

/-! ## What a point writes back -/

/-- Point t writes back block t of the wide heads. -/
theorem flushed4_eq (c : Dev nD) (t : Fin cfg0.N) :
    (dats m 0 c).flushed 4 t
      = ((cfg0.win 4).blk t).view.read (Elt Ideal) (headsWide (V m c main_arg0) (V m c main_v4) (V m c main_v2)) := by
  show (cfg0.win 4).cut (grid0.coords t) ((dats m 0 c).after 4 t) = _
  rw [after0_4]
  unfold out0_4
  rw [View.canon_unit_zero hz]
  simp only [View.ld_unit_zero (S := S512x4096) hz, View.ld_unit_zero (S := S4096x128) hz, View.ld_unit_zero (S := S1x128) hz]
  funext j
  obtain ⟨p, q, rfl⟩ : ∃ (p : Fin 512) (q : Fin 128), j = ix2 p q := ⟨j 0, j 1, eq_ix2 j⟩
  obtain ⟨-, -, -, -, -, -, -, -, e0, e1, -, -, ht⟩ := idx_facts t
  have hrow : t.val * 512 + p.val < 16384 := by have := p.isLt; omega
  have hemb : ((cfg0.win 4).blk t).view.emb (ix2 p q) = ix2 (⟨t.val * 512 + p.val, hrow⟩ : Fin 16384) q := by
    funext a; apply Fin.ext
    match a with
    | ⟨0, _⟩ => show win0_4.index t (0 : Fin 2) * 512 + 1 * p.val = t.val * 512 + p.val; omega
    | ⟨1, _⟩ => show win0_4.index t (1 : Fin 2) * 128 + 1 * q.val = q.val; omega
  show k0_pay1 (F := Ideal) (iblk m c 0 t) (iblk m c 2 t) (iblk m c 3 t) (ix2 p q)
    = headsWide (V m c main_arg0) (V m c main_v4) (V m c main_v2) (((cfg0.win 4).blk t).view.emb (ix2 p q))
  rw [hemb]
  exact pay1_block m c t p q ⟨_, hrow⟩ rfl

/-- Point t writes back block t of the wide weighted sum. -/
theorem flushed5_eq (c : Dev nD) (t : Fin cfg0.N) :
    (dats m 0 c).flushed 5 t
      = ((cfg0.win 5).blk t).view.read (Elt Ideal)
          (mixWide (V m c main_arg0) (V m c main_v3) (V m c main_v4) (V m c main_v2)) := by
  show (cfg0.win 5).cut (grid0.coords t) ((dats m 0 c).after 5 t) = _
  rw [after0_5]
  unfold out0_5
  rw [View.canon_unit_zero hz]
  simp only [View.ld_unit_zero (S := S512x4096) hz, View.ld_unit_zero (S := S4096x128) hz, View.ld_unit_zero (S := S1x128) hz,
    View.ld_unit_zero (S := S512x128) hz]
  funext j
  obtain ⟨p, u, rfl⟩ : ∃ (p : Fin 512) (u : Fin 1), j = ix2 p u := ⟨j 0, j 1, eq_ix2 j⟩
  obtain rfl : u = 0 := Subsingleton.elim _ _
  obtain ⟨-, -, -, -, -, -, -, -, -, -, e0, e1, ht⟩ := idx_facts t
  have hrow : t.val * 512 + p.val < 16384 := by have := p.isLt; omega
  have hemb : ((cfg0.win 5).blk t).view.emb (ix2 p (0 : Fin 1)) = ix2 (⟨t.val * 512 + p.val, hrow⟩ : Fin 16384) (0 : Fin 1) := by
    funext a; apply Fin.ext
    match a with
    | ⟨0, _⟩ => show win0_5.index t (0 : Fin 2) * 512 + 1 * p.val = t.val * 512 + p.val; omega
    | ⟨1, _⟩ => show win0_5.index t (1 : Fin 2) * 1 + 1 * 0 = 0; omega
  show k0_pay2 (F := Ideal) (iblk m c 0 t) (iblk m c 2 t) (iblk m c 3 t) (iblk m c 1 t) (ix2 p (0 : Fin 1))
    = mixWide (V m c main_arg0) (V m c main_v3) (V m c main_v4) (V m c main_v2) (((cfg0.win 5).blk t).view.emb (ix2 p (0 : Fin 1)))
  rw [hemb]
  refine (pay2_apply (iblk m c 0 t) (iblk m c 2 t) (iblk m c 3 t) (iblk m c 1 t) p).trans ?_
  simp only [pay1_block m c t p _ (⟨t.val * 512 + p.val, hrow⟩ : Fin 16384) rfl, read_v m c t p _ (⟨t.val * 512 + p.val, hrow⟩ : Fin 16384) rfl]
  rfl

/-! ## The cover -/

theorem mem_blk4 (t : Fin cfg0.N) (i : S16384x128.Idx) :
    i ∈ ((cfg0.win 4).blk t).view.set ↔ ∀ a : Fin 2, win0_4.index t a * S512x128.size a ≤ (i a).val ∧ (i a).val < win0_4.index t a * S512x128.size a + S512x128.size a := by
  show i ∈ ((View.whole main_v5_0).slice (win0_4.rect t)).set ↔ _
  rw [View.set_slice_whole, Rect.mem_set_unit]
  exact Iff.rfl

theorem mem_blk5 (t : Fin cfg0.N) (i : S16384x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v5_1).slice (win0_5.rect t)).set ↔ _
  rw [View.set_slice_whole, Rect.mem_set_unit]
  exact Iff.rfl

/-- Row r of the first output is in the block of point r / 512. -/
theorem cover4 (i : S16384x128.Idx) :
    ∃ t : Fin cfg0.N, (cfg0.win 4).flush t = true ∧ i ∈ ((cfg0.win 4).blk t).view.set := by
  have hi0 : (i 0).val < 16384 := (i 0).isLt
  have hi1 : (i 1).val < 128 := (i 1).isLt
  obtain ⟨t, ht⟩ := idx_onto4 ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 128 ≤ (i 1).val ∧ (i 1).val < win0_4.index t (1 : Fin 2) * 128 + 128; omega

/-- The same for the second output. -/
theorem cover5 (i : S16384x1.Idx) :
    ∃ t : Fin cfg0.N, (cfg0.win 5).flush t = true ∧ i ∈ ((cfg0.win 5).blk t).view.set := by
  have hi0 : (i 0).val < 16384 := (i 0).isLt
  have hi1 : (i 1).val < 1 := (i 1).isLt
  obtain ⟨t, ht⟩ := idx_onto5 ⟨(i 0).val / 512, by omega⟩
  have q0 : win0_5.index t (0 : Fin 2) = (i 0).val / 512 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

/-! ## The arrays after the region -/

theorem final4 (c : Dev nD) :
    (dats m 0 c).arrAt 4 cfg0.N = headsWide (V m c main_arg0) (V m c main_v4) (V m c main_v2) :=
  (dats m 0 c).arrAt_eq_of_cover 4 _ (fun t _ => flushed4_eq m c t) cover4

theorem final5 (c : Dev nD) :
    (dats m 0 c).arrAt 5 cfg0.N = mixWide (V m c main_arg0) (V m c main_v3) (V m c main_v4) (V m c main_v2) :=
  (dats m 0 c).arrAt_eq_of_cover 5 _ (fun t _ => flushed5_eq m c t) cover5

end Cert.KernelIdeal.Blocks

end
-- ==== Proof.Entry.lean ====
/-
  What the region finds in the three arrays the host lines before it write, entry by entry.

  The weights are widened from 21 to 128 rows with zeros and transposed; the bias is widened from 21 to 128 entries with
  zeros and viewed as one row; `v` is widened from 21 to 128 columns with zeros. The padding value is the integer zero
  converted to a float, which is the real number zero. So at lane a each array holds the argument's entry for
  a < 21 and zero from 21 on.
-/
import proofs.«155062_j6373731467819_1_alg».proof.Proof.Gen.KernelIdeal.Frame
import Idealize.ShloMosaic.Lib.KernelVsHost
import Idealize.ShloMosaic.Lib.ValueIdx
import Idealize.ShloMosaic.Lib.ValueLayout
import Idealize.ShloMosaic.Lib.Pipeline.Value

noncomputable section

namespace Cert.KernelIdeal.Entry

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The padding value: the integer zero converted, the real number zero. -/
theorem padval : sitofp (F := Ideal) .f32 (constantI S_ 32 0#32) (Shape.Idx.first h_S_) = (0 : EReal) :=
  Idealize.ShloMosaic.sitofp_zero

/-! ## The three arrays as the host lines' terms of the arguments -/

theorem wT_term (c : Dev nD) :
    V m c main_v4 = transpose S4096x128 [1, 0]
      (pad S128x4096 ![0, 0] ![107, 0] ![0, 0] (m ((c : Thread nD τ).loc main_arg2))
        (sitofp (F := Ideal) .f32 (constantI S_ 32 0#32)) pads_S21x4096_S128x4096_01070_000 h_S_)
      transposes_S128x4096_S4096x128_1_0 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem bias_term (c : Dev nD) :
    V m c main_v2 = shapeCast S1x128
      (pad S128 ![0] ![107] ![0] (m ((c : Thread nD τ).loc main_arg3))
        (sitofp (F := Ideal) .f32 (constantI S_ 32 0#32)) pads_S21_S128_01070 h_S_)
      shapeCasts_S128_S1x128 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

theorem v_term (c : Dev nD) :
    V m c main_v3 = pad S16384x128 ![0, 0] ![0, 107] ![0, 0] (m ((c : Thread nD τ).loc main_arg1))
        (sitofp (F := Ideal) .f32 (constantI S_ 32 0#32)) pads_S16384x21_S16384x128_000_01070 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-! ## Read at an entry -/

/-- The transposed widened weights at (k, a): W(a, k) below lane 21, zero from 21 on. -/
theorem wT_apply (c : Dev nD) (k : Fin 4096) (a : Fin 128) :
    V m c main_v4 (ix2 k a)
      = if h : a.val < 21 then m ((c : Thread nD τ).loc main_arg2) (ix2 (⟨a.val, h⟩ : Fin 21) k) else (0 : EReal) := by
  refine (congrFun (wT_term m c) (ix2 k a)).trans ?_
  rw [transpose_ix2_apply]
  by_cases h : a.val < 21
  · rw [dif_pos h]
    exact pad_apply_of_inside _ _ _ _ _ _ _ (ix2 a k) (ix2 (⟨a.val, h⟩ : Fin 21) k) (fun d => by
      match d with
      | ⟨0, _⟩ => show a.val = 0 + a.val * (0 + 1); omega
      | ⟨1, _⟩ => show k.val = 0 + k.val * (0 + 1); omega)
  · rw [dif_neg h]
    refine (pad_apply_of_not_inside _ _ _ _ _ _ _ (ix2 a k) (0 : Fin 2) ?_).trans (padval)
    show ¬(0 ≤ a.val ∧ (a.val - 0) % (0 + 1) = 0 ∧ (a.val - 0) / (0 + 1) < 21)
    omega

/-- The widened bias row at (0, a): b(a) below lane 21, zero from 21 on. -/
theorem bias_apply (c : Dev nD) (a : Fin 128) :
    V m c main_v2 (ix2 (0 : Fin 1) a)
      = if h : a.val < 21 then m ((c : Thread nD τ).loc main_arg3) (ix1 (⟨a.val, h⟩ : Fin 21)) else (0 : EReal) := by
  refine (congrFun (bias_term m c) (ix2 (0 : Fin 1) a)).trans ?_
  rw [shapeCast_a_1a_apply]
  by_cases h : a.val < 21
  · rw [dif_pos h]
    exact pad_apply_of_inside _ _ _ _ _ _ _ (ix1 a) (ix1 (⟨a.val, h⟩ : Fin 21)) (fun d => by
      match d with
      | ⟨0, _⟩ => show a.val = 0 + a.val * (0 + 1); omega)
  · rw [dif_neg h]
    refine (pad_apply_of_not_inside _ _ _ _ _ _ _ (ix1 a) (0 : Fin 1) ?_).trans (padval)
    show ¬(0 ≤ a.val ∧ (a.val - 0) % (0 + 1) = 0 ∧ (a.val - 0) / (0 + 1) < 21)
    omega

/-- The widened `v` at (r, a): v(r, a) below lane 21, zero from 21 on. -/
theorem v_apply (c : Dev nD) (r : Fin 16384) (a : Fin 128) :
    V m c main_v3 (ix2 r a)
      = if h : a.val < 21 then m ((c : Thread nD τ).loc main_arg1) (ix2 r (⟨a.val, h⟩ : Fin 21)) else (0 : EReal) := by
  refine (congrFun (v_term m c) (ix2 r a)).trans ?_
  by_cases h : a.val < 21
  · rw [dif_pos h]
    exact pad_apply_of_inside _ _ _ _ _ _ _ (ix2 r a) (ix2 r (⟨a.val, h⟩ : Fin 21)) (fun d => by
      match d with
      | ⟨0, _⟩ => show r.val = 0 + r.val * (0 + 1); omega
      | ⟨1, _⟩ => show a.val = 0 + a.val * (0 + 1); omega)
  · rw [dif_neg h]
    refine (pad_apply_of_not_inside _ _ _ _ _ _ _ (ix2 r a) (1 : Fin 2) ?_).trans (padval)
    show ¬(0 ≤ a.val ∧ (a.val - 0) % (0 + 1) = 0 ∧ (a.val - 0) / (0 + 1) < 21)
    omega

end Cert.KernelIdeal.Entry

end
-- ==== Proof.KernelRun.lean ====
/-
  The idealized kernel program's run, read: its two results are `mix` and `heads` of its arguments.

  After the region the first output array is `headsWide` and the second `mixWide` of the arrays the region found. The
  two host lines after the region keep the first 21 lanes of the first (a slice along the lanes) and view the second, a
  column, as a vector. The arrays the region found are the arguments widened with zero lanes, so the kept lanes are
  `heads`, and the column is `mix`: a lane from 21 on adds a product with zero.
-/
import proofs.«155062_j6373731467819_1_alg».proof.Proof.Blocks
import proofs.«155062_j6373731467819_1_alg».proof.Proof.Entry
import Idealize.ShloMosaic.Lib.ValueLayout

noncomputable section

open scoped BigOperators

namespace Cert.KernelIdeal.Read

open Cert.KernelIdeal Cert.KernelIdeal.Gen Cert.KernelIdeal.Blocks Cert.KernelIdeal.Entry Cert.Heads
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The host lines after the region -/

/-- The first result is the first output array cut to its first 21 lanes. -/
theorem tail_out (c : Dev nD) :
    Pipeline.afterTail₀ cfgs (dats m) 0 (V0 m) [hostOps1] c main_v6
      = extractStridedSlice S16384x21 ![0, 0] (headsWide (V m c main_arg0) (V m c main_v4) (V m c main_v2))
          slices_S16384x128_S16384x21_0_0 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.devRef .tc main_v5_0)
      = headsWide (V m c main_arg0) (V m c main_v4) (V m c main_v2) :=
    (Pipeline.withArrays_arr spec0 launch0.win.arr_inj c _ _ 4).trans (final4 m c)
  rw [e]

/-- The second result is the second output array, a column, viewed as a vector. -/
theorem tail_result (c : Dev nD) :
    Pipeline.afterTail₀ cfgs (dats m) 0 (V0 m) [hostOps1] c main_v7
      = shapeCast S16384 (mixWide (V m c main_arg0) (V m c main_v3) (V m c main_v4) (V m c main_v2))
          shapeCasts_S16384x1_S16384 := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v5_1)
      = mixWide (V m c main_arg0) (V m c main_v3) (V m c main_v4) (V m c main_v2) :=
    (Pipeline.withArrays_arr spec0 launch0.win.arr_inj c _ _ 5).trans (final5 m c)
  rw [e]
  rfl

/-! ## The results as functions of the arguments -/

theorem out_val (c : Dev nD) :
    Pipeline.afterTail₀ cfgs (dats m) 0 (V0 m) [hostOps1] c main_v6
      = heads (m ((c : Thread nD τ).loc main_arg0)) (m ((c : Thread nD τ).loc main_arg2)) (m ((c : Thread nD τ).loc main_arg3)) := by
  rw [tail_out, V_main_arg0 m c]
  funext i
  obtain ⟨r, a, rfl⟩ : ∃ (r : Fin 16384) (a : Fin 21), i = ix2 r a := ⟨i 0, i 1, eq_ix2 i⟩
  have ha : a.val < 21 := a.isLt
  rw [slice2_axis1_apply 0 _ _ r a (⟨a.val, by omega⟩ : Fin 128) (by show a.val = 0 + a.val; omega)]
  rw [headsWide_lane (m ((c : Thread nD τ).loc main_arg0)) (m ((c : Thread nD τ).loc main_arg2)) (m ((c : Thread nD τ).loc main_arg3))
    (V m c main_v4) (V m c main_v2) (fun k a => wT_apply m c k a) (fun a => bias_apply m c a) r ⟨a.val, by omega⟩]
  rw [dif_pos ha]

theorem result_val (c : Dev nD) :
    Pipeline.afterTail₀ cfgs (dats m) 0 (V0 m) [hostOps1] c main_v7
      = mix (m ((c : Thread nD τ).loc main_arg0)) (m ((c : Thread nD τ).loc main_arg1)) (m ((c : Thread nD τ).loc main_arg2))
          (m ((c : Thread nD τ).loc main_arg3)) := by
  rw [tail_result, V_main_arg0 m c]
  funext i
  obtain ⟨r, rfl⟩ : ∃ r : Fin 16384, i = ix1 r := ⟨i 0, eq_ix1 i⟩
  refine (shapeCast_apply _ _ (ix1 r) (ix2 r (0 : Fin 1)) (by
    rw [Shape.rowMajor_val_two, Shape.rowMajor_val_one]; show r.val * 1 + 0 = r.val; omega)).trans ?_
  exact mixWide_row (m ((c : Thread nD τ).loc main_arg0)) (m ((c : Thread nD τ).loc main_arg1)) (m ((c : Thread nD τ).loc main_arg2))
    (m ((c : Thread nD τ).loc main_arg3)) (V m c main_v3) (V m c main_v4) (V m c main_v2)
    (fun k a => wT_apply m c k a) (fun a => bias_apply m c a) (fun r a => v_apply m c r a) r

/-! ## The run -/

/-- Every weakly fair execution of the idealized kernel program terminates with its two results at `mix` and `heads`
    of the arguments, and the arguments unchanged. -/
theorem run : θ_run defs (onTc (τ := τ) (main (F := Ideal))) ⟨m, fun _ => 0, ρ⟩ fun r => ∀ c : Dev nD,
      r.2.mem ((c : Thread nD τ).loc main_v7)
        = mix (m ((c : Thread nD τ).loc main_arg0)) (m ((c : Thread nD τ).loc main_arg1)) (m ((c : Thread nD τ).loc main_arg2))
            (m ((c : Thread nD τ).loc main_arg3))
      ∧ r.2.mem ((c : Thread nD τ).loc main_v6)
        = heads (m ((c : Thread nD τ).loc main_arg0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v7 (Pipeline.mem_restRefs_of main_v7 (by decide) (by decide))).trans (result_val m c),
     ((h c).2 main_v6 (Pipeline.mem_restRefs_of main_v6 (by decide) (by decide))).trans (out_val m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.Read

end
-- ==== Proof.Ref.lean ====
/-
  The reference's two results are `heads` and `mix` of its arguments.

  Its first result is the product of `x` with `W` contracted over their second axes, plus the bias laid along the
  rows: entry (r, a) is Σ_d x(r, d) · W(a, d) + b(a). Its second result is the sum over the 21 heads of that array
  times `v`, from the initial value zero.
-/
import proofs.«155062_j6373731467819_1_alg».proof.Proof.Gen.ReferenceIdeal.Read
import proofs.«155062_j6373731467819_1_alg».proof.Proof.Spec

noncomputable section

open scoped BigOperators

namespace Cert.ReferenceIdeal.IsHeads

open Cert.ReferenceIdeal Cert.ReferenceIdeal.Read Cert.Heads Idealize.ShloMosaic Idealize.ShloMosaic.ValueIdx

/-- The index maps of the product and of the two broadcasts, by coordinates. -/
theorem lidx_eq (i : S16384x21.Idx) (k : Fin 4096) : lidx_main_v0 i k = ix2 (i 0) k :=
  funext fun a => by match a with | ⟨0, _⟩ => rfl | ⟨1, _⟩ => rfl
theorem ridx_eq (i : S16384x21.Idx) (k : Fin 4096) : ridx_main_v0 i k = ix2 (i 1) k :=
  funext fun a => by match a with | ⟨0, _⟩ => rfl | ⟨1, _⟩ => rfl
theorem bidx_eq (i : S16384x21.Idx) : idx_main_v1 (idx_main_v2 i) = ix1 (i 1) :=
  funext fun a => by match a with | ⟨0, _⟩ => rfl
theorem sidx_eq (i : S16384.Idx) (k : Fin 21) : idx_main_v5 i k = ix2 (i 0) k :=
  funext fun a => by match a with | ⟨0, _⟩ => rfl | ⟨1, _⟩ => rfl

/-- The first result: the heads. -/
theorem out_eq (x : (⟨S16384x4096, .f32⟩ : BufTy).Contents (Elt Ideal)) (W : (⟨S21x4096, .f32⟩ : BufTy).Contents (Elt Ideal))
    (b : (⟨S21, .f32⟩ : BufTy).Contents (Elt Ideal)) :
    val_main_v3 (F := Ideal) x W b = heads x W b := by
  funext i
  rw [val_main_v3_apply, val_main_v0_apply, val_main_v2_apply, val_main_v1_apply]
  simp only [lidx_eq, ridx_eq, bidx_eq]
  rfl

/-- The second result: the heads weighted and summed; the sum's initial value is the zero word. -/
theorem result_eq (x : (⟨S16384x4096, .f32⟩ : BufTy).Contents (Elt Ideal)) (v : (⟨S16384x21, .f32⟩ : BufTy).Contents (Elt Ideal))
    (W : (⟨S21x4096, .f32⟩ : BufTy).Contents (Elt Ideal)) (b : (⟨S21, .f32⟩ : BufTy).Contents (Elt Ideal)) :
    val_main_v5 (F := Ideal) x v W b = mix x v W b := by
  funext i
  rw [val_main_v5_apply, val_main_cst_apply]
  show Ideal.ofBits .f32 0x00000000#32 + _ = _
  rw [Ideal.ofBits_zero_f32, zero_add]
  refine Finset.sum_congr rfl fun a _ => ?_
  rw [val_main_v4_apply, sidx_eq, out_eq]
  rfl

end Cert.ReferenceIdeal.IsHeads

end
-- ==== Proof.lean ====
/-
  Twenty-one linear heads over 16384 rows, `out(r, a) = Σ_d x(r, d) · W(a, d) + b(a)`, and their weighted sum
  `result(r) = Σ_a out(r, a) · v(r, a)`: a kernel that computes both over 128 lanes (the weights, the bias and `v`
  widened with zero lanes, 512 rows a grid point) against the plain contraction and sum.

  On the extended reals the two programs compute the same two arrays. A change of float format is the identity there,
  and a matrix product into a zero accumulator is the contraction's sum, so a lane below 21 of the kernel's first output is
  the reference's head. A lane from 21 on holds Σ_d x(r, d) · 0 + 0, and a product with zero is zero on the extended
  reals whatever the other factor, so those lanes are zero and add nothing to the weighted sum; the host lines after the
  region cut them off the first output. Nothing of the inputs' finiteness is used.

  Both frames of the kernel are the generated ones; the reference's frame is its run with the results dropped; the
  idealization rewrote nothing, so there is nothing to preserve.
-/
import proofs.«155062_j6373731467819_1_alg».proof.Defs
import proofs.«155062_j6373731467819_1_alg».proof.Proof.Gen.Kernel
import proofs.«155062_j6373731467819_1_alg».proof.Proof.Gen.Kernel.Skeleton
import proofs.«155062_j6373731467819_1_alg».proof.Proof.Gen.Kernel.Launch
import proofs.«155062_j6373731467819_1_alg».proof.Proof.Gen.Kernel.Points
import proofs.«155062_j6373731467819_1_alg».proof.Proof.Gen.Kernel.Frame
import proofs.«155062_j6373731467819_1_alg».proof.Proof.Gen.KernelIdeal
import proofs.«155062_j6373731467819_1_alg».proof.Proof.Gen.KernelIdeal.Skeleton
import proofs.«155062_j6373731467819_1_alg».proof.Proof.Gen.KernelIdeal.Launch
import proofs.«155062_j6373731467819_1_alg».proof.Proof.Gen.KernelIdeal.Points
import proofs.«155062_j6373731467819_1_alg».proof.Proof.Gen.KernelIdeal.Frame
import proofs.«155062_j6373731467819_1_alg».proof.Proof.Gen.ReferenceIdeal
import proofs.«155062_j6373731467819_1_alg».proof.Proof.Gen.ReferenceIdeal.Run
import proofs.«155062_j6373731467819_1_alg».proof.Proof.Gen.ReferenceIdeal.Read
import proofs.«155062_j6373731467819_1_alg».proof.Proof.Gen.Pre_finite_inputs
import proofs.«155062_j6373731467819_1_alg».proof.Proof.KernelRun
import proofs.«155062_j6373731467819_1_alg».proof.Proof.Ref
import Idealize.ShloMosaic.Adequacy
import Idealize.ShloMosaic.Init

noncomputable section

namespace Cert.Proof

open Idealize.ShloMosaic Idealize.ShloMosaic.TcCoe Idealize.SL.Sem Cert.Heads

/-- From memories that agree on the arguments both idealized programs end with `mix` and `heads` of the arguments:
    the kernel program by its run read back, the reference by its run and the reading of its two results. -/
theorem algebraic [hPre : Cert.Pre_finite_inputs.Facts] :
    Cert.algebraic_KernelIdeal_ReferenceIdeal (hKernelIdeal := Cert.KernelIdeal.Gen.facts)
      (hReferenceIdeal := Cert.ReferenceIdeal.Gen.facts) (hPre_finite_inputs := hPre) := by
  intro m ρ m' ρ' _ hagree
  refine ⟨fun c => mix (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    fun c => heads (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Read.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v5_eq, Cert.ReferenceIdeal.IsHeads.result_eq, (hagree c).1, (hagree c).2.1,
      (hagree c).2.2.1, (hagree c).2.2.2]
  · rw [Cert.ReferenceIdeal.Read.val_main_v3_eq, Cert.ReferenceIdeal.IsHeads.out_eq, (hagree c).1, (hagree c).2.2.1,
      (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic (hPre := Cert.Pre_finite_inputs.Gen.facts)⟩

end Cert.Proof

end
